-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S65536x512 .f32) (main_arg1 : FVec F S512x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S65536x512 : Shape := ⟨2, ![65536, 512]⟩
abbrev S512x512 : Shape := ⟨2, ![512, 512]⟩
abbrev S2048x512 : Shape := ⟨2, ![2048, 512]⟩
abbrev S2048 : Shape := ⟨1, ![2048]⟩
abbrev S2048x1 : Shape := ⟨2, ![2048, 1]⟩
abbrev S512 : Shape := ⟨1, ![512]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S65536x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  reduces_S2048x512_S2048 : S2048x512.Reduces [1] S2048
  shapeCasts_S2048_S2048x1 : S2048.ShapeCasts S2048x1
  reduces_S512x512_S512 : S512x512.Reduces [1] S512
  bitsLt_bf16_f32 : FTy.bits .bf16 < FTy.bits .f32
  shapeCasts_S512_S1x512 : S512.ShapeCasts S1x512
  broadcasts_S2048x1_S2048x512 : S2048x1.Broadcasts S2048x512
  broadcasts_S1x512_S2048x512 : S1x512.Broadcasts S2048x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S_ : Shape := ⟨0, ![]⟩
abbrev S65536 : Shape := ⟨1, ![65536]⟩
abbrev S65536x1 : Shape := ⟨2, ![65536, 1]⟩
abbrev S512 : Shape := ⟨1, ![512]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S65536x512, .f32⟩
  | .hbm, ⟨10, _⟩ => ⟨S1x512, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  reducesTo_S512x512_S512_d1 : S512x512.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  dot_S65536x512_S512x512_S65536x512_1_1_0_0_n_n_wf : DotDims.WF S65536x512 S512x512 S65536x512 [1] [1] [0] [0] [] []

variable [Facts₀]

def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf

class Facts : Prop extends Facts₀ where

variable [Facts]
-- ==== Proof.SqDist.lean ====
/-
  Squared Euclidean distances between the rows of two matrices with 512 columns, over the extended reals.

  For a matrix `x` with `R` rows and a matrix `w` with `P` rows, the entry at (r, p) is
      |x_r|² + |w_p|² − 2 · ⟨x_r, w_p⟩,
  with |x_r|² = ∑ₖ x(r,k)·x(r,k), |w_p|² = ∑ₖ w(p,k)·w(p,k) and ⟨x_r, w_p⟩ = ∑ₖ x(r,k)·w(p,k), each sum over the 512
  columns, and the factor 2 the float word 0x40000000 read at the ideal values. The three terms are combined in this
  order and grouping: (|x_r|² + |w_p|²) − (2 · ⟨x_r, w_p⟩). No law of arithmetic is used anywhere: both programs
  compute exactly this expression, so no finiteness of the entries is needed.

  The entry at (r, p) depends on `x` only through its row r and on `w` only through its row p: matrices that have the
  same two rows (under other row numbers) give the same entry (`rowDist_congr`). This is what lets a block of rows be
  treated as a matrix of its own.
-/
import Idealize.ShloMosaic.Lib.ValueIdx

noncomputable section

open scoped BigOperators

namespace Cert.SqDist

open Idealize.ShloMosaic Idealize.ShloMosaic.ValueIdx

/-- A matrix of extended reals with `R` rows and 512 columns. -/
abbrev Mat (R : Nat) : Type := (⟨2, ![R, 512]⟩ : Shape).Idx → EReal

/-- The factor 2: the float word 0x40000000 at the ideal values. -/
def two : EReal := Ideal.ofBits .f32 0x40000000#32

/-- |a_r|²: the sum over the 512 columns of the squares of row `r`. -/
def rowSq {R : Nat} (a : Mat R) (r : Fin R) : EReal := ∑ k : Fin 512, a (ix2 r k) * a (ix2 r k)

/-- ⟨a_r, b_p⟩: the sum over the 512 columns of the products of row `r` of `a` and row `p` of `b`. -/
def rowDot {R P : Nat} (a : Mat R) (b : Mat P) (r : Fin R) (p : Fin P) : EReal :=
  ∑ k : Fin 512, a (ix2 r k) * b (ix2 p k)

/-- The squared distance between row `r` of `x` and row `p` of `w`, expanded: (|x_r|² + |w_p|²) − 2·⟨x_r, w_p⟩. -/
def rowDist {R P : Nat} (x : Mat R) (w : Mat P) (r : Fin R) (p : Fin P) : EReal :=
  rowSq x r + rowSq w p - two * rowDot x w r p

/-- The matrix of all squared distances between the rows of `x` and the 512 rows of `w`. -/
def sqDist {R : Nat} (x : Mat R) (w : Mat 512) : Mat R := fun i => rowDist x w (i 0) (i 1)

theorem sqDist_ix2 {R : Nat} (x : Mat R) (w : Mat 512) (r : Fin R) (p : Fin 512) :
    sqDist x w (ix2 r p) = rowDist x w r p := rfl

/-- The entry at (r, p) reads `x` only along its row r and `w` only along its row p: matrices that hold the same two
    rows, under whatever row numbers, give the same entry. -/
theorem rowDist_congr {R R' P P' : Nat} (x : Mat R) (x' : Mat R') (w : Mat P) (w' : Mat P') (r : Fin R) (r' : Fin R')
    (p : Fin P) (p' : Fin P') (hx : ∀ k : Fin 512, x (ix2 r k) = x' (ix2 r' k))
    (hw : ∀ k : Fin 512, w (ix2 p k) = w' (ix2 p' k)) : rowDist x w r p = rowDist x' w' r' p' := by
  unfold rowDist rowSq rowDot
  simp only [hx, hw]

end Cert.SqDist

end
-- ==== Proof.RefDist.lean ====
/-
  The plain program computes the matrix of squared distances.

  Read at an index (n, p), the plain program's result is
      ((0 + ∑ₖ x(n,k)·x(n,k)) + (0 + ∑ₖ w(p,k)·w(p,k))) − 2 · ∑ₖ x(n,k)·w(p,k):
  the two row totals start from the zero word, the totals are spread along rows and columns so that the entry (n, p)
  sees the total of row n of `x` and the total of row p of `w`, and the product contracts the column axis of both
  matrices. Dropping the two zeros, this is `SqDist.rowDist x w n p` term by term.
-/
import proofs.«148426_j40819369181533_1_alg».proof.Proof.Gen.ReferenceIdeal.Read
import proofs.«148426_j40819369181533_1_alg».proof.Proof.SqDist

noncomputable section

open scoped BigOperators

namespace Cert.RefDist

open Cert.ReferenceIdeal Cert.ReferenceIdeal.Read Idealize.ShloMosaic Idealize.ShloMosaic.ValueIdx Cert.SqDist

/-- Through the two spreading steps and the row total, entry (n, p) reads row n of the first matrix. -/
theorem rows_x (n : Fin 65536) (p k : Fin 512) :
    idx_main_v1 (idx_main_v2 (idx_main_v7 (ix2 n p))) k = ix2 n k :=
  funext fun a => Fin.ext (by match a with | ⟨0, _⟩ => rfl | ⟨1, _⟩ => rfl)

/-- Through the two spreading steps and the row total, entry (n, p) reads row p of the second matrix. -/
theorem rows_w (n : Fin 65536) (p k : Fin 512) :
    idx_main_v4 (idx_main_v6 (idx_main_v8 (ix2 n p))) k = ix2 p k :=
  funext fun a => Fin.ext (by match a with | ⟨0, _⟩ => rfl | ⟨1, _⟩ => rfl)

/-- The product's left factor at contraction index k is x(n, k). -/
theorem prod_x (n : Fin 65536) (p k : Fin 512) : lidx_main_v5 (ix2 n p) k = ix2 n k :=
  funext fun a => Fin.ext (by match a with | ⟨0, _⟩ => rfl | ⟨1, _⟩ => rfl)

/-- The product's right factor at contraction index k is w(p, k). -/
theorem prod_w (n : Fin 65536) (p k : Fin 512) : ridx_main_v5 (ix2 n p) k = ix2 p k :=
  funext fun a => Fin.ext (by match a with | ⟨0, _⟩ => rfl | ⟨1, _⟩ => rfl)

/-- The plain program's result, as a function of its two argument matrices, is the matrix of squared distances. -/
theorem ref_eq (x0 : (⟨S65536x512, .f32⟩ : BufTy).Contents (Elt Ideal)) (x1 : (⟨S512x512, .f32⟩ : BufTy).Contents (Elt Ideal)) :
    val_main_v12 (F := Ideal) x0 x1 = sqDist x0 x1 := by
  funext i
  obtain ⟨n, p, rfl⟩ : ∃ (n : Fin 65536) (p : Fin 512), i = ix2 n p := ⟨i 0, i 1, eq_ix2 i⟩
  rw [val_main_v12_apply, val_main_v9_apply, val_main_v11_apply, val_main_v7_apply, val_main_v2_apply, val_main_v1_apply,
    val_main_v8_apply, val_main_v6_apply, val_main_v4_apply, val_main_v10_apply, val_main_v5_apply,
    val_main_cst_apply, val_main_cst_0_apply, val_main_cst_1_apply]
  simp only [rows_x, rows_w, prod_x, prod_w, val_main_v0_apply, val_main_v3_apply, Ideal.mulf_def, Ideal.addf_def,
    Ideal.subf_def, Ideal.ofBits_def, Ideal.ofBits_zero_f32, zero_add]
  rfl

end Cert.RefDist

end
-- ==== Proof.LibColumnLayout.lean ====
/-
  A column of row totals laid beside a matrix: the two layout steps of a sum taken with its axis kept.

  A vector of `a` entries recast as an `a × 1` column has, at (i, 0), the vector's entry i; and an `a × 1` column
  spread over `b` columns has, at (p, c), the column's entry at row p, whatever the column number c. Together: the
  total of row p appears at every place of row p.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.BlockDist.lean ====
/-
  One block of the tiled program: 2048 rows of the first matrix against all 512 rows of the second.

  The body's stored value, read at (r, p), is
      (|x_r|² + |w_p|²) − 2 · ⟨x_r, w_p⟩
  for the block's own 2048 rows x_r: the row totals of the squares of the block are recast as a column and spread over
  the 512 columns (entry (r, p) sees the total of row r); the row totals of the squares of the second matrix are
  recast as a row and spread over the 2048 rows (entry (r, p) sees the total of row p); and the matrix product
  contracts the column axis of BOTH operands, into a zero accumulator, so its entry (r, p) is ∑ₖ x(r,k)·w(p,k). The
  narrowing of both operands to a shorter float format before the product is the identity at the ideal values. So the
  stored block is `SqDist.rowDist` of the block and the second matrix, term by term, with no law of arithmetic used.
-/
import proofs.«148426_j40819369181533_1_alg».proof.Proof.Gen.KernelIdeal.Skeleton
import proofs.«148426_j40819369181533_1_alg».proof.Proof.SqDist
import proofs.«148426_j40819369181533_1_alg».proof.Proof.LibColumnLayout
import Idealize.ShloMosaic.PureOps.Ideal.Laws
import Idealize.ShloMosaic.Lib.ValueLayout

noncomputable section

open scoped BigOperators

namespace Cert.BlockDist

open Cert.KernelIdeal Cert.KernelIdeal.Gen Idealize.ShloMosaic Idealize.ShloMosaic.ValueIdx Cert.SqDist Cert.ColumnLayout

/-! ## Row totals -/

/-- The total over the column axis of a 2048 × 512 block, at row r. -/
theorem rowTotal_block (v : FVec Ideal S2048x512 .f32) (h : S2048x512.Reduces [1] S2048) (hφ : FKind.Formats .f32)
    (hacc : (0x00000000#32 : BitVec 32) = FKind.add.neutral .f32 hφ) (r : Fin 2048) :
    multiReduction .add [1] S2048 v 0x00000000#32 h hφ hacc (ix1 r) = ∑ k : Fin 512, v (ix2 r k) := by
  refine (Ideal.multiReduction_add_single v 0x00000000#32 h hφ hacc (ix1 r)).trans ?_
  refine Finset.sum_congr rfl fun k _ => ?_
  exact congrArg v (funext fun a => Fin.ext (by match a with | ⟨0, _⟩ => rfl | ⟨1, _⟩ => rfl))

/-- The total over the column axis of the 512 × 512 matrix, at row p. -/
theorem rowTotal_w (v : FVec Ideal S512x512 .f32) (h : S512x512.Reduces [1] S512) (hφ : FKind.Formats .f32)
    (hacc : (0x00000000#32 : BitVec 32) = FKind.add.neutral .f32 hφ) (p : Fin 512) :
    multiReduction .add [1] S512 v 0x00000000#32 h hφ hacc (ix1 p) = ∑ k : Fin 512, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-! ## The two spreads -/

/-- Row totals recast as a column and spread over the columns: entry (r, p) is the total of row r. -/
theorem column_spread (v : FVec Ideal S2048 .f32) (hc : S2048.ShapeCasts S2048x1) (hb : S2048x1.Broadcasts S2048x512)
    (r : Fin 2048) (p : Fin 512) : broadcastTo S2048x512 (shapeCast S2048x1 v hc) hb (ix2 r p) = v (ix1 r) :=
  (broadcastTo_a1_ab_apply (shapeCast S2048x1 v hc) hb r p).trans (shapeCast_a_a1_apply v hc r 0)

/-- Row totals recast as a row and spread over the rows: entry (r, p) is the total of row p. -/
theorem row_spread (v : FVec Ideal S512 .f32) (hc : S512.ShapeCasts S1x512) (hb : S1x512.Broadcasts S2048x512)
    (r : Fin 2048) (p : Fin 512) : broadcastTo S2048x512 (shapeCast S1x512 v hc) hb (ix2 r p) = v (ix1 p) :=
  (broadcastTo_1b_ab_apply (shapeCast S1x512 v hc) hb r p).trans (shapeCast_a_1a_apply v hc 0 p)

/-! ## The product contracting both column axes -/

theorem lhs_row (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem lhs_col (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
theorem rhs_row (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
theorem rhs_col (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- The product into a zero accumulator, at (r, p): the sum over the shared column index k of l(r,k)·w(p,k). -/
theorem cross_at {φ₁ φ₂ : FTy} (l : FVec Ideal S2048x512 φ₁) (w : FVec Ideal S512x512 φ₂) (r : Fin 2048) (p : Fin 512) :
    matmul dot_S2048x512_S512x512_S2048x512_1_1_0_0_n_n none l w (constant S2048x512 .f32 0x00000000#32) (ix2 r p)
      = ∑ k : Fin 512, l (ix2 r k) * w (ix2 p k) := by
  simp only [matmul]
  rw [Ideal.matmul_constant_zero_apply, ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 r p) ((contrEquiv1 dot_S2048x512_S512x512_S2048x512_1_1_0_0_n_n 512 rfl rfl).symm k) = ix2 r k := funext fun a => Fin.ext (by
    match a with
    | ⟨0, _⟩ => exact lhs_row _ _
    | ⟨1, _⟩ => exact (lhs_col _ _).trans hk)
  have er : dot_S2048x512_S512x512_S2048x512_1_1_0_0_n_n.rhsIdx (ix2 r p) ((contrEquiv1 dot_S2048x512_S512x512_S2048x512_1_1_0_0_n_n 512 rfl rfl).symm k) = ix2 p k := funext fun a => Fin.ext (by
    match a with
    | ⟨0, _⟩ => exact rhs_row _ _
    | ⟨1, _⟩ => exact (rhs_col _ _).trans hk)
  rw [el, er]

/-! ## The stored block -/

/-- The body's stored value at (r, p) is the squared distance between row r of the block and row p of the second
    matrix. -/
theorem pay_at (x0 : FVec Ideal S2048x512 .f32) (x1 : FVec Ideal S512x512 .f32) (r : Fin 2048) (p : Fin 512) :
    k0_pay1 (F := Ideal) x0 x1 (ix2 r p) = rowDist x0 x1 r p := by
  unfold k0_pay1 rowDist
  refine congrArg₂ (· - ·) (congrArg₂ (· + ·) ?_ ?_) (congrArg₂ (· * ·) rfl ?_)
  · exact (column_spread _ _ _ r p).trans (rowTotal_block _ _ _ _ r)
  · exact (row_spread _ _ _ r p).trans (rowTotal_w _ _ _ _ p)
  · exact cross_at _ _ r p

/-- The stored block, whole: the squared-distance matrix of the block's rows against the second matrix. -/
theorem pay_eq (x0 : FVec Ideal S2048x512 .f32) (x1 : FVec Ideal S512x512 .f32) :
    k0_pay1 (F := Ideal) x0 x1 = sqDist x0 x1 := by
  funext j
  obtain ⟨r, p, rfl⟩ : ∃ (r : Fin 2048) (p : Fin 512), j = ix2 r p := ⟨j 0, j 1, eq_ix2 j⟩
  exact pay_at x0 x1 r p

end Cert.BlockDist

end
-- ==== Proof.ArrayDist.lean ====
/-
  From the 32 blocks to the whole array.

  Grid point t works on rows 2048·t … 2048·t + 2047 of the first matrix and on the whole second matrix, and writes
  rows 2048·t … 2048·t + 2047 of the result. Entry (r, p) of what it writes is the squared distance between row r of
  its block — which is row 2048·t + r of the first matrix — and row p of the second matrix; since a squared distance
  reads only those two rows, this is entry (2048·t + r, p) of the squared-distance matrix of the two whole arrays. So
  every point writes back its block of ONE matrix, and the 32 blocks tile the 65536 rows (row i lies in block
  i / 2048), hence the result array ends holding that matrix.
-/
import proofs.«148426_j40819369181533_1_alg».proof.Proof.Gen.KernelIdeal.Value
import proofs.«148426_j40819369181533_1_alg».proof.Proof.BlockDist

noncomputable section

namespace Cert.ArrayDist

open Cert.KernelIdeal Cert.KernelIdeal.Gen Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The block numbers, decided over the 32 points: point t takes row block t of the first matrix and of the result,
    and the one block of the second matrix. -/
theorem block_numbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the squared-distance matrix of the two argument arrays. -/
theorem flushed_eq (c : Dev nD) (t : Fin cfg0.N) :
    (dats m 0 c).flushed 2 t
      = ((cfg0.win 2).blk t).view.read (Elt Ideal) (sqDist (V m c main_arg0) (V m c main_arg1)) := by
  rw [Value.flushed2]
  unfold out0_2
  rw [View.canon_unit_zero origin]
  simp only [View.ld_unit_zero (S := S2048x512) origin, View.ld_unit_zero (S := S512x512) origin]
  rw [Cert.BlockDist.pay_eq]
  obtain ⟨e0, e1, e2, e3, e4, e5⟩ := block_numbers t
  funext j
  obtain ⟨r, p, rfl⟩ : ∃ (r : Fin 2048) (p : Fin 512), j = ix2 r p := ⟨j 0, j 1, eq_ix2 j⟩
  show rowDist (R := 2048) (P := 512) (iblk m c 0 t) (iblk m c 1 t) r p
    = rowDist (R := 65536) (P := 512) (V m c main_arg0) (V m c main_arg1)
        ((((cfg0.win 2).blk t).view.emb (ix2 r p)) 0) ((((cfg0.win 2).blk t).view.emb (ix2 r p)) 1)
  refine rowDist_congr _ _ _ _ _ _ _ _ (fun k => ?_) (fun k => ?_)
  · show V m c main_arg0 (((cfg0.win 0).blk t).view.emb (ix2 r k))
      = V m c main_arg0 (ix2 ((((cfg0.win 2).blk t).view.emb (ix2 r p)) 0) k)
    refine congrArg _ (funext fun a => Fin.ext ?_)
    match a with
    | ⟨0, _⟩ =>
      show win0_0.index t (0 : Fin 2) * 2048 + 1 * r.val = win0_2.index t (0 : Fin 2) * 2048 + 1 * r.val
      omega
    | ⟨1, _⟩ =>
      show win0_0.index t (1 : Fin 2) * 512 + 1 * k.val = k.val
      omega
  · show V m c main_arg1 (((cfg0.win 1).blk t).view.emb (ix2 p k))
      = V m c main_arg1 (ix2 ((((cfg0.win 2).blk t).view.emb (ix2 r p)) 1) k)
    refine congrArg _ (funext fun a => Fin.ext ?_)
    match a with
    | ⟨0, _⟩ =>
      show win0_1.index t (0 : Fin 2) * 512 + 1 * p.val = win0_2.index t (1 : Fin 2) * 512 + 1 * p.val
      omega
    | ⟨1, _⟩ =>
      show win0_1.index t (1 : Fin 2) * 512 + 1 * k.val = k.val
      omega

/-- An index of the result array is in point `t`'s block iff each coordinate is in the block's range on its axis. -/
theorem mem_block (t : Fin cfg0.N) (i : S65536x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v0).slice (win0_2.rect t)).set ↔ _
  rw [View.set_slice_whole, Rect.mem_set_unit]
  exact Iff.rfl

/-- THE COVER: row i of the result lies in the block of point i / 2048, and every point writes its block back. -/
theorem covered (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, e4, e5⟩ := block_numbers t
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 512 ≤ (i 1).val ∧ (i 1).val < win0_2.index t (1 : Fin 2) * 512 + 512
    omega

/-- THE ARRAY after the run: the squared-distance matrix of the two argument arrays as launched. -/
theorem final (c : Dev nD) :
    (dats m 0 c).arrAt 2 cfg0.N
      = sqDist (m ((c : Thread nD τ).loc main_arg0)) (m ((c : Thread nD τ).loc main_arg1)) :=
  (dats m 0 c).arrAt_eq_of_cover 2 (sqDist (V m c main_arg0) (V m c main_arg1)) (fun t _ => flushed_eq m c t) covered

/-- The tiled program's run, read: the result array ends at the squared-distance matrix of the arguments, and the
    arguments are unchanged. -/
theorem run : θ_run defs (onTc (τ := τ) (main (F := Ideal))) ⟨m, fun _ => 0, ρ⟩ fun r => ∀ c : Dev nD,
      r.2.mem ((c : Thread nD τ).loc main_v0)
        = sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.ArrayDist

end
-- ==== Proof.lean ====
/-
  Squared distances between 65536 rows and 512 rows, tiled against plain: the two programs are one function.

  The tiled program cuts the 65536 × 512 matrix `x` into 32 blocks of 2048 rows; for each block it forms, against the
  whole 512 × 512 matrix `w`, the row totals of the squares of the block and of `w`, the product of the block with `w`
  contracted along the columns of both, and stores (|x_r|² + |w_p|²) − 2·⟨x_r, w_p⟩. The plain program forms the same
  three terms on the whole arrays and combines them in the same order. At the ideal values a change of float format
  is the identity and a total over a row is a finite sum over its 512 columns, so:

  * the plain program's result is `SqDist.sqDist x w`, entry by entry (Proof/RefDist.lean, over the reading of the
    plain program one operation at a time);
  * each block the tiled program stores is `SqDist.sqDist` of that block and `w` (Proof/BlockDist.lean), which is the
    block of `SqDist.sqDist x w` because an entry reads only its own two rows, and the 32 blocks tile the result
    (Proof/ArrayDist.lean).

  No algebraic law joins the two sides — the expressions agree term by term — so the precondition (finite inputs) is
  never opened. The word-level program and its idealization have the same text (no rewrite was applied), so the
  idealization statement is trivial; the three termination-and-unchanged-arguments statements are the run theorems.
-/
import proofs.«148426_j40819369181533_1_alg».proof.Defs
import proofs.«148426_j40819369181533_1_alg».proof.Proof.Gen.Kernel
import proofs.«148426_j40819369181533_1_alg».proof.Proof.Gen.Kernel.Frame
import proofs.«148426_j40819369181533_1_alg».proof.Proof.Gen.KernelIdeal
import proofs.«148426_j40819369181533_1_alg».proof.Proof.Gen.KernelIdeal.Frame
import proofs.«148426_j40819369181533_1_alg».proof.Proof.Gen.KernelIdeal.Value
import proofs.«148426_j40819369181533_1_alg».proof.Proof.Gen.ReferenceIdeal
import proofs.«148426_j40819369181533_1_alg».proof.Proof.Gen.ReferenceIdeal.Run
import proofs.«148426_j40819369181533_1_alg».proof.Proof.Gen.ReferenceIdeal.Read
import proofs.«148426_j40819369181533_1_alg».proof.Proof.Gen.Pre_finite_inputs
import proofs.«148426_j40819369181533_1_alg».proof.Proof.RefDist
import proofs.«148426_j40819369181533_1_alg».proof.Proof.ArrayDist
import Idealize.ShloMosaic.Adequacy
import Idealize.ShloMosaic.Init

noncomputable section

namespace Cert.Proof

open Idealize.ShloMosaic Idealize.ShloMosaic.TcCoe Idealize.SL.Sem

/-- The word-level tiled program terminates without a fault and leaves its arguments as they were. -/
theorem frame_kernel : Cert.frame_Kernel := fun m ρ _ => Cert.Kernel.Gen.frame m ρ

/-- So does the tiled program read at the ideal values. -/
theorem frame_kernelIdeal : Cert.frame_KernelIdeal := fun m ρ _ => Cert.KernelIdeal.Gen.frame m ρ

/-- So does the plain program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two argument arrays, the tiled program's result array and the plain program's
    result both end at the squared-distance matrix of those arrays. -/
theorem algebraic : Cert.algebraic_KernelIdeal_ReferenceIdeal := by
  intro m ρ m' ρ' _ hagree
  refine ⟨_, Cert.ArrayDist.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.RefDist.ref_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
